-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S128000x128 : Shape := ⟨2, ![128000, 128]⟩
abbrev S128x1024 : Shape := ⟨2, ![128, 1024]⟩
abbrev S_ : Shape := ⟨0, ![]⟩

class Facts : Prop where
  bcast_S_S128000x128 : S_.BroadcastsInDim S128000x128 (![] : Fin 0 → Fin S128000x128.rank)
  reducesTo_S128000x128_S_d0_1 : S128000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S128000x128 .f32) (main_arg2 : FVec F S128x1024 .f32) : IVec S_ 1 :=
  let main_v0 : FVec F S128000x128 .f32 := Host.absf main_arg1
  let main_cst : FVec F S_ .f32 := constant S_ .f32 0x7F800000#32
  let main_v1 : FVec F S128000x128 .f32 := broadcastInDim S128000x128 ![] bcast_S_S128000x128 main_cst
  let main_v2 : IVec S128000x128 1 := cmpf .olt main_v0 main_v1
  let main_c : IVec S_ 1 := constantI S_ 1 1#1
  let main_v3 : IVec S_ 1 := (fun x v => Host.reduce IntOp.andi x v reducesTo_S128000x128_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_c_2 : IVec S_ 32 := constantI S_ 32 4294839296#32
  let main_v9 : IVec S4x4096 32 := broadcastInDim S4x4096 ![] bcast_S_S4x4096 main_c_2
  let main_v10 : IVec S4x4096 1 := cmpi .sge main_arg0 main_v9
  let main_c_3 : IVec S_ 32 := constantI S_ 32 128000#32
  let main_v11 : IVec S4x4096 32 := broadcastInDim S4x4096 ![] bcast_S_S4x4096 main_c_3
  let main_v12 : IVec S4x4096 1 := cmpi .slt main_arg0 main_v11
  let main_v13 : IVec S4x4096 1 := andi main_v10 main_v12
  let main_c_4 : IVec S_ 1 := constantI S_ 1 1#1
  let main_v14 : IVec S_ 1 := (fun x v => Host.reduce IntOp.andi x v reducesTo_S4x4096_S_d0_1 h_S_) main_v13 main_c_4
  let main_v15 : IVec S_ 1 := andi main_v8 main_v14
  main_v15
-- ==== Kernel.lean ====
abbrev S4x4096 : Shape := ⟨2, ![4, 4096]⟩
abbrev S128000x128 : Shape := ⟨2, ![128000, 128]⟩
abbrev S128x1024 : Shape := ⟨2, ![128, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1024 : Shape := ⟨2, ![16384, 1024]⟩
abbrev S2048x128 : Shape := ⟨2, ![2048, 128]⟩
abbrev S2048x1024 : Shape := ⟨2, ![2048, 1024]⟩
abbrev S4x4096x1024 : Shape := ⟨3, ![4, 4096, 1024]⟩

abbrev nBuf : Space → Nat
  | .hbm => 31
  | .vmem => 5
  | .smem => 0
  | _ => 0

abbrev bufTy : (tb : Table) → Fin (tcTables nBuf tb) → BufTy
  | .hbm, ⟨0, _⟩ => ⟨S4x4096, .i32⟩
  | .hbm, ⟨1, _⟩ => ⟨S128000x128, .f32⟩
  | .hbm, ⟨2, _⟩ => ⟨S128x1024, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x128, .bf16⟩
  | .hbm, ⟨28, _⟩ => ⟨S128x1024, .bf16⟩
  | .hbm, ⟨29, _⟩ => ⟨S16384x1024, .f32⟩
  | .hbm, ⟨30, _⟩ => ⟨S4x4096x1024, .f32⟩
  | .local _ .vmem, ⟨0, _⟩ => ⟨S2048x128, .bf16⟩
  | .local _ .vmem, ⟨1, _⟩ => ⟨S2048x128, .bf16⟩
  | .local _ .vmem, ⟨2, _⟩ => ⟨S128x1024, .bf16⟩
  | .local _ .vmem, ⟨3, _⟩ => ⟨S2048x1024, .f32⟩
  | .local _ .vmem, ⟨4, _⟩ => ⟨S2048x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2048x1024_S2048x1024_0_0 : ∀ a, (![0, 0] : Fin 2 → Nat) a + S2048x1024.size a ≤ S2048x1024.size a
  h_S2048x1024 : 0 < S2048x1024.numel
  shapeCasts_S16384x1024_S4x4096x1024 : S16384x1024.ShapeCasts S4x4096x1024
  gather_S128000x128_S16384x1_S16384x128_1_0_n_n_0_1_1128_wf : GatherDims.WF S128000x128 S16384x1 S16384x128 [1] [0] [] [0] [] 1 ![1, 128]
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .f32 = 32 ∨ (Rect.block (s := S16384x1024) S2048x1024.size (cc0_transform_2 i) (hinb0_2 i)).WholeWords (EltTy.packing .f32)

variable [Facts₀]

def gather_S128000x128_S16384x1_S16384x128_1_0_n_n_0_1_1128 : GatherDims S128000x128 S16384x1 S16384x128 where
  offsetDims := [1]
  collapsedSliceDims := [0]
  operandBatchingDims := []
  startIndicesBatchingDims := []
  startIndexMap := [0]
  indexVectorDim := 1
  sliceSizes := ![1, 128]
  wf := gather_S128000x128_S16384x1_S16384x128_1_0_n_n_0_1_1128_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S128000x128 : Shape := ⟨2, ![128000, 128]⟩
abbrev S128x1024 : Shape := ⟨2, ![128, 1024]⟩
abbrev S128000x1024 : Shape := ⟨2, ![128000, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S128000x128, .f32⟩
  | .hbm, ⟨2, _⟩ => ⟨S128x1024, .f32⟩
  | .hbm, ⟨3, _⟩ => ⟨S128000x1024, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x1024, .f32⟩
  | .hbm, ⟨23, _⟩ => ⟨S4x4096x1024, .i1⟩
  | .hbm, ⟨24, _⟩ => ⟨S_, .f32⟩
  | .hbm, ⟨25, _⟩ => ⟨S4x4096x1024, .f32⟩
  | .hbm, ⟨26, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  dot_S128000x128_S128x1024_S128000x1024_1_0_0_1_n_n_wf : DotDims.WF S128000x128 S128x1024 S128000x1024 [1] [0] [0] [1] [] []
  gather_S128000x1024_S4x4096x1_S4x4096x1024_2_0_n_n_0_2_11024_wf : GatherDims.WF S128000x1024 S4x4096x1 S4x4096x1024 [2] [0] [] [0] [] 2 ![1, 1024]

variable [Facts₀]

def dot_S128000x128_S128x1024_S128000x1024_1_0_0_1_n_n : DotDims S128000x128 S128x1024 S128000x1024 where
  lhsContracting := [1]
  rhsContracting := [0]
  lhsNonContracting := [0]
  rhsNonContracting := [1]
  lhsBatch := []
  rhsBatch := []
  wf := dot_S128000x128_S128x1024_S128000x1024_1_0_0_1_n_n_wf
def gather_S128000x1024_S4x4096x1_S4x4096x1024_2_0_n_n_0_2_11024 : GatherDims S128000x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S128000x1024_S4x4096x1_S4x4096x1024_2_0_n_n_0_2_11024_wf

class Facts : Prop extends Facts₀ where

variable [Facts]
-- ==== Proof.RefRun.lean ====
/-
  The reference program's run, read back.

  The reference forms the full table `embed_vocab · embed_hidden` (one host product) and then reads one row of it per
  token: the outlined indexed read wraps negative ids, tests the wrapped ids against the table's rows, gathers the rows
  (clamped), and where the test fails puts the fill word in the row's place. Its `@main` is a straight line of 24 host
  operations; every weakly fair execution terminates with the result buffer at their composition applied to the three
  argument arrays, and the arguments unchanged.
-/
import proofs.«158048_j47837345743217_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- `@main`'s 24 operations, in order: the table's product, then the indexed read's 23 at its call site. -/
abbrev ops : List (HloOp τ sig (Elt F)) :=
  [ binary main_arg1 main_arg2 main_v0 ((fun l r => Host.dotGeneral dot_S128000x128_S128x1024_S128000x1024_1_0_0_1_n_n none l r) : (⟨S128000x128, .f32⟩ : BufTy).Contents (Elt F) → (⟨S128x1024, .f32⟩ : BufTy).Contents (Elt F) → (⟨S128000x1024, .f32⟩ : BufTy).Contents (Elt F)),
    TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 128000#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 127999#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_v0) main_call0.v5 main_call0.v13 (fun x i => Host.gather gather_S128000x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- `@main` is that straight line: the outlined functions unfolded at their calls, sequencing reassociated. -/
theorem main_eq (c : Dev nD) : main (F := F) c = seq ops := by
  simp only [main, fn_take.body, fn_where.body, seq, bind_assoc, pure_bind]

/-! ## The result as one pure term of the arguments -/

/-- The wrapped ids: `x + 128000` where `x < 0`, else `x`. -/
def wrapped (x : IVec S4x4096 32) : IVec S4x4096 32 :=
  select (cmpi .slt x (broadcastInDim S4x4096 ![] bcast_S_S4x4096 (constantI S_ 32 0#32)))
    (addi x (broadcastInDim S4x4096 ![] bcast_S_S4x4096 (constantI S_ 32 128000#32))) x

/-- The wrapped ids as a column of start indices. -/
def starts (x : IVec S4x4096 32) : IVec S4x4096x1 32 :=
  broadcastInDim S4x4096x1 ![0, 1] bcast_S4x4096_S4x4096x1_0_1 (wrapped x)

/-- The range test of every start index, reduced over the index vector's one component. -/
def valid (x : IVec S4x4096 32) : IVec S4x4096 1 :=
  Host.reduce IntOp.andi
    (andi (cmpi .sge (starts x) (broadcastInDim S4x4096x1 ![] bcast_S_S4x4096x1 (constantI S_ 32 0#32)))
      (cmpi .sle (starts x) (broadcastInDim S4x4096x1 ![0, 1, 2] bcast_S1x1x1_S4x4096x1_0_1_2
        (broadcastInDim S1x1x1 ![2] bcast_S1_S1x1x1_2 (constantI S1 32 127999#32)))))
    (constantI S_ 1 1#1) reducesTo_S4x4096x1_S4x4096_d2 h_S_

/-- The reference's result: rows of the product table where the range test passes, the fill word elsewhere. -/
def result (x : IVec S4x4096 32) (ev : FVec F S128000x128 .f32) (eh : FVec F S128x1024 .f32) : FVec F S4x4096x1024 .f32 :=
  select (broadcastInDim S4x4096x1024 ![0, 1] bcast_S4x4096_S4x4096x1024_0_1 (valid x))
    (Host.gather gather_S128000x1024_S4x4096x1_S4x4096x1024_2_0_n_n_0_2_11024
      (Host.dotGeneral dot_S128000x128_S128x1024_S128000x1024_1_0_0_1_n_n none ev eh) (starts x))
    (broadcastInDim S4x4096x1024 ![] bcast_S_S4x4096x1024 (constant S_ .f32 0x7FC00000#32))

attribute [local irreducible] Host.reduce Host.gather in
set_option maxRecDepth 8192 in
set_option maxHeartbeats 800000 in
/-- The operations' fold at the result buffer is `result` of the arguments. -/
theorem out_eq (V : Valuation τ sig (Elt F)) :
    after ops V (main_v1 : DevRef τ sig)
      = result (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- On every device, from any memory with zero counters: every weakly fair execution of the reference's `@main`
    terminates with the result buffer at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.TokenRow.lean ====
/-
  Token ids as rows of the vocabulary table, and the embedding they select.

  A token id is a signed 32-bit word `b`. An indexed read of a table with 128000 rows first wraps a negative id round
  (`b + 128000` when `b < 0`), tests the wrapped id against `[0, 127999]`, and reads the row the wrapped id names,
  clamped into that range. For an id in `[0, 128000)` nothing wraps and the row is `b` itself; an id in `[-128000, 0)` wraps
  to `b + 128000`, Python's indexing from the end; for both the test passes. Every other id fails it.

  The factorized embedding of token `(b, s)` is row `x[b, s]` of the product `embed_vocab · embed_hidden`:
  `out[b, s, h] = ∑ k < 128, embed_vocab[row x[b, s], k] · embed_hidden[k, h]` on the extended reals.
-/
import Idealize.ShloMosaic.PureOps.Ideal
import Idealize.ShloMosaic.Lib.Affine
import Idealize.ShloMosaic.Lib.ValueIdx
import proofs.«158048_j47837345743217_1_alg».proof.Proof.LibGatherRows

noncomputable section

open scoped BigOperators

namespace Cert.TokenRow

open Idealize.ShloMosaic Idealize.ShloMosaic.ValueIdx

/-- A negative id wrapped round the table's 128000 rows; a nonnegative id as it is. -/
def wrap (b : BitVec 32) : BitVec 32 := Scalar.select (IntOp.cmpi .slt b 0#32) (IntOp.addi b 128000#32) b

/-- The wrapped id lies in `[0, 127999]`, as a one-bit word. -/
def inRange (b : BitVec 32) : BitVec 1 :=
  IntOp.andi (IntOp.cmpi .sge (wrap b) 0#32) (IntOp.cmpi .sle (wrap b) 127999#32)

/-- The table row an id reads: the wrapped id clamped into `[0, 127999]`. -/
def row (b : BitVec 32) : Fin 128000 := Cert.LibGatherRows.clampRow 128000 (by decide) (wrap b)

/-- A nonnegative id is not wrapped. -/
theorem wrap_of_nonneg {b : BitVec 32} (h0 : 0 ≤ b.toInt) : wrap b = b := by
  have ez : (0#32 : BitVec 32).toInt = 0 := by decide
  have hn : ¬ IntOp.cmpi .slt b 0#32 = 1#1 := fun h => by
    have := IntOp.cmpi_slt.mp h
    omega
  unfold wrap Scalar.select
  exact if_neg hn

/-- A negative id no smaller than `-128000` wraps to the id plus `128000`, as integers: the sum does not overflow. -/
theorem toInt_wrap_of_neg {b : BitVec 32} (hlo : -128000 ≤ b.toInt) (h : b.toInt < 0) :
    (wrap b).toInt = b.toInt + 128000 := by
  have ez : (0#32 : BitVec 32).toInt = 0 := by decide
  have e1 : (128000#32 : BitVec 32).toInt = 128000 := by decide
  have hp : IntOp.cmpi .slt b 0#32 = 1#1 := IntOp.cmpi_slt.mpr (by omega)
  have hw : wrap b = b + 128000#32 := by
    unfold wrap Scalar.select
    exact if_pos hp
  rw [hw, BitVec.toInt_add, e1]
  exact Int.bmod_eq_of_le (by omega) (by omega)

/-- An id in `[-128000, 128000)` passes the range test: a nonnegative one as it is, a negative one wrapped into
    `[0, 128000)`. The lower bound is any word whose signed value is `-128000`. -/
theorem inRange_of_bounds {b lo : BitVec 32} (hlo : lo.toInt = -128000) (h0 : IntOp.cmpi .sge b lo = 1#1)
    (h1 : IntOp.cmpi .slt b 128000#32 = 1#1) : inRange b = 1#1 := by
  have h0' : lo.toInt ≤ b.toInt := IntOp.cmpi_sge.mp h0
  have h1' : b.toInt < (128000#32 : BitVec 32).toInt := IntOp.cmpi_slt.mp h1
  have e1 : (128000#32 : BitVec 32).toInt = 128000 := by decide
  have e2 : (127999#32 : BitVec 32).toInt = 127999 := by decide
  have ez : (0#32 : BitVec 32).toInt = 0 := by decide
  have hw : 0 ≤ (wrap b).toInt ∧ (wrap b).toInt ≤ 127999 := by
    by_cases hn : b.toInt < 0
    · rw [toInt_wrap_of_neg (by omega) hn]; omega
    · rw [wrap_of_nonneg (by omega)]; omega
  unfold inRange
  exact IntOp.andi_eq_one.mpr ⟨IntOp.cmpi_sge.mpr (by omega), IntOp.cmpi_sle.mpr (by omega)⟩

/-- Entry `(b, s, h)` of the factorized embedding: row `x[b, s]` of the vocabulary factor against column `h` of the
    hidden factor. -/
def outAt (x : (⟨2, ![4, 4096]⟩ : Shape).Idx → BitVec 32) (ev : (⟨2, ![128000, 128]⟩ : Shape).Idx → EReal)
    (eh : (⟨2, ![128, 1024]⟩ : Shape).Idx → EReal) (b : Fin 4) (s : Fin 4096) (h : Fin 1024) : EReal :=
  ∑ k : Fin 128, ev (ix2 (row (x (ix2 b s))) k) * eh (ix2 k h)

/-- The factorized embedding of every token, as one array. -/
def out (x : (⟨2, ![4, 4096]⟩ : Shape).Idx → BitVec 32) (ev : (⟨2, ![128000, 128]⟩ : Shape).Idx → EReal)
    (eh : (⟨2, ![128, 1024]⟩ : Shape).Idx → EReal) : (⟨3, ![4, 4096, 1024]⟩ : Shape).Idx → EReal :=
  fun i => outAt x ev eh (i 0) (i 1) (i 2)

theorem out_ix3 (x : (⟨2, ![4, 4096]⟩ : Shape).Idx → BitVec 32) (ev : (⟨2, ![128000, 128]⟩ : Shape).Idx → EReal)
    (eh : (⟨2, ![128, 1024]⟩ : Shape).Idx → EReal) (b : Fin 4) (s : Fin 4096) (h : Fin 1024) :
    out x ev eh (ix3 b s h) = outAt x ev eh b s h := rfl

end Cert.TokenRow

end
-- ==== Proof.LibGatherRows3.lean ====
/-
  A gather of rows by a two-axis batch of row numbers, read at an index.

  What `h[idx]` of a matrix `h : [N, D]` at row numbers `idx : [A, B, 1]` lowers to: a `stablehlo.gather` whose one
  offset axis is the result's last (offset_dims `[2]`), whose operand row axis is collapsed and is the one axis a start
  index addresses (collapsed_slice_dims `[0]`, start_index_map `[0]`, index_vector_dim `2`), with slices of one whole
  row (slice_sizes `[1, D]`). Result element `(a, b, q)` is the operand at row `idx[a, b, 0]`, read as a signed integer
  and clamped into `[0, N − 1]`, and column `q`. The two batch axes of the result are the two leading axes of the
  row numbers, in order.
-/
import Idealize.ShloMosaic.PureOps.Ideal
import Idealize.ShloMosaic.Lib.ValueIdx
import proofs.«158048_j47837345743217_1_alg».proof.Proof.LibGatherRows

noncomputable section

namespace Cert.LibGatherRows3

open Idealize.ShloMosaic Idealize.ShloMosaic.ValueIdx
open Cert.LibGatherRows (clampRow)

section Coordinates

variable {N A B D w : Nat}
  (d : GatherDims (⟨2, ![N, D]⟩ : Shape) (⟨3, ![A, B, 1]⟩ : Shape) (⟨3, ![A, B, D]⟩ : Shape))
  (hoff : d.offsetDims = [2]) (hcoll : d.collapsedSliceDims = [0]) (hob : d.operandBatchingDims = [])
  (hsim : d.startIndexMap = [0]) (hivd : d.indexVectorDim = 2)

include hoff hcoll hob hsim hivd

/-- The start-indices index result index `(a, b, q)` reads: the batch coordinates `a`, `b` on the two leading axes and
    the one component, `0`, on the index vector's axis. -/
theorem siIdx_row (a : Fin A) (b : Fin B) (q : Fin D) (c : Fin d.startIndexMap.length) :
    d.siIdx (ix3 a b q) c = ix3 a b (0 : Fin 1) := by
  obtain ⟨od, cd, ob, sb, sm, iv, ss, wf⟩ := d
  subst hoff hcoll hob hsim hivd
  funext e
  refine Fin.ext ?_
  match e with
  | ⟨0, _⟩ => rfl
  | ⟨1, _⟩ => rfl
  | ⟨2, _⟩ =>
    have hc : c.val < 1 := c.isLt
    show c.val = 0
    omega

/-- On the operand's row axis the slice starts at the signed start index clamped into `[0, N − 1]`. -/
theorem start_row (idx : IVec (⟨3, ![A, B, 1]⟩ : Shape) w) (a : Fin A) (b : Fin B) (q : Fin D) :
    d.start (ix3 a b q) idx 0 = min (idx (ix3 a b (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd a b q, hsl]
  rfl

/-- On the operand's column axis, which no start index addresses, the slice starts at `0`. -/
theorem start_col (idx : IVec (⟨3, ![A, B, 1]⟩ : Shape) w) (a : Fin A) (b : Fin B) (q : Fin D) :
    d.start (ix3 a b q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (a : Fin A) (b : Fin B) (q : Fin D) (e : Fin 2) : d.batchCoord (ix3 a b q) e = 0 :=
  d.batchCoord_eq_zero _ e (by rw [hob]; exact List.not_mem_nil)

/-- The operand's row axis is collapsed: its offset coordinate is `0`. -/
theorem offCoord_row (a : Fin A) (b : Fin B) (q : Fin D) : d.offCoord (ix3 a b q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (a : Fin A) (b : Fin B) (q : Fin D) : d.offCoord (ix3 a b q) 1 = q.val := by
  obtain ⟨od, cd, ob, sb, sm, iv, ss, wf⟩ := d
  subst hoff hcoll hob hsim hivd
  rfl

end Coordinates

/-- THE GATHER OF ROWS READ AT `(a, b, q)`: the operand at the clamped row `idx[a, b, 0]` names and at column `q`. -/
theorem gatherRows3_apply {α : Type} {N A B D w : Nat} (hN : 0 < N)
    (d : GatherDims (⟨2, ![N, D]⟩ : Shape) (⟨3, ![A, B, 1]⟩ : Shape) (⟨3, ![A, B, D]⟩ : Shape))
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec (⟨3, ![A, B, 1]⟩ : Shape) w) (a : Fin A) (b : Fin B) (q : Fin D) :
    Host.gather d x idx (ix3 a b q) = x (ix2 (clampRow N hN (idx (ix3 a b (0 : Fin 1)))) q) := by
  unfold Host.gather
  refine congrArg x ?_
  funext e
  refine Fin.ext ?_
  match e with
  | ⟨0, _⟩ =>
    show d.start (ix3 a b q) idx 0 + d.batchCoord (ix3 a b q) 0 + d.offCoord (ix3 a b q) 0
      = min (idx (ix3 a b (0 : Fin 1))).toInt.toNat (N - 1)
    rw [start_row d hoff hcoll hob hsim hivd idx a b q, batchCoord_zero d hoff hcoll hob hsim hivd a b q 0,
      offCoord_row d hoff hcoll hob hsim hivd a b q]
    rfl
  | ⟨1, _⟩ =>
    show d.start (ix3 a b q) idx 1 + d.batchCoord (ix3 a b q) 1 + d.offCoord (ix3 a b q) 1 = q.val
    rw [start_col d hoff hcoll hob hsim hivd idx a b q, batchCoord_zero d hoff hcoll hob hsim hivd a b q 1,
      offCoord_col d hoff hcoll hob hsim hivd a b q]
    omega

end Cert.LibGatherRows3

end
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.LibAndReduceOnes.lean ====
/-
  An `and`-reduction of an array of ones is one.

  `jnp.all(p)`, and every reduction by `and` from the initial value `1`, folds the one-bit words of `p` that drop
  to a result index into `1`. When every word of `p` is `1` the fold never leaves `1`, whatever the reduced axes and
  whatever the result index. (The converse direction, a result `1` forcing every word to `1`, is the library's.)
-/
import Idealize.ShloMosaic.PureOps.Reduce

namespace Cert.LibAndReduceOnes

open Idealize.ShloMosaic

/-- A left fold by `and` from `1` over words that are all `1` is `1`. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- A reduction by `and`, from an initial value `1`, of an array whose every word is `1` is `1` at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_ones x hx _

end Cert.LibAndReduceOnes
-- ==== Proof.LibLeadBroadcast.lean ====
/-
  A broadcast that keeps the leading axes, read at an index.

  `v[..., None]` and its relatives: an array laid along the leading axes of a result that has one more, trailing, axis
  (`broadcast_in_dim` with dims `[0]` or `[0, 1]`). The result at `(a, q)`, or `(a, b, q)`, is the operand at `(a)`, or
  `(a, b)`: constant along the new axis. An operand axis of extent one reads coordinate `0`, which is then the only
  coordinate there is, so no side condition on the extents is needed.
-/
import Idealize.ShloMosaic.PureOps.Ideal
import Idealize.ShloMosaic.Lib.ValueIdx

namespace Cert.LibLeadBroadcast

open Idealize.ShloMosaic Idealize.ShloMosaic.ValueIdx

/-- A vector laid along the first axis of an `[A, D]` result reads, at `(a, q)`, the vector at `a`. -/
theorem bcast_lead1 {α : Type} {A D : Nat} (h : (⟨1, ![A]⟩ : Shape).BroadcastsInDim ⟨2, ![A, D]⟩ ![0])
    (v : (⟨1, ![A]⟩ : Shape).Idx → α) (a : Fin A) (q : Fin D) :
    broadcastInDim ⟨2, ![A, D]⟩ ![0] h v (ix2 a q) = v (ix1 a) := by
  simp only [broadcastInDim]
  congr 1
  funext e
  have he : e = 0 := Subsingleton.elim _ _
  subst he
  apply Fin.ext
  have ha := a.isLt
  split
  · next h1 => change A = 1 at h1; show (0 : Nat) = a.val; omega
  · rfl

/-- A matrix laid along the first two axes of an `[A, B, D]` result reads, at `(a, b, q)`, the matrix at `(a, b)`. -/
theorem bcast_lead2 {α : Type} {A B D : Nat} (h : (⟨2, ![A, B]⟩ : Shape).BroadcastsInDim ⟨3, ![A, B, D]⟩ ![0, 1])
    (v : (⟨2, ![A, B]⟩ : Shape).Idx → α) (a : Fin A) (b : Fin B) (q : Fin D) :
    broadcastInDim ⟨3, ![A, B, D]⟩ ![0, 1] h v (ix3 a b q) = v (ix2 a b) := by
  simp only [broadcastInDim]
  congr 1
  funext e
  apply Fin.ext
  have ha := a.isLt
  have hb := b.isLt
  match e with
  | ⟨0, _⟩ =>
    split
    · next h1 => change A = 1 at h1; show (0 : Nat) = a.val; omega
    · rfl
  | ⟨1, _⟩ =>
    split
    · next h1 => change B = 1 at h1; show (0 : Nat) = b.val; omega
    · rfl

end Cert.LibLeadBroadcast
-- ==== Proof.RefValue.lean ====
/-
  The reference's result, entry by entry.

  Where every token id passes the range test the reference's select keeps the gathered rows everywhere, and entry
  `(b, s, h)` of the result is entry `(row x[b, s], h)` of the product table `embed_vocab · embed_hidden`: the sum
  over the 128 shared columns of `embed_vocab[row x[b, s], k] · embed_hidden[k, h]`.
-/
import proofs.«158048_j47837345743217_1_alg».proof.Proof.RefRun
import proofs.«158048_j47837345743217_1_alg».proof.Proof.TokenRow
import proofs.«158048_j47837345743217_1_alg».proof.Proof.LibGatherRows3
import proofs.«158048_j47837345743217_1_alg».proof.Proof.LibPlainDotSum
import proofs.«158048_j47837345743217_1_alg».proof.Proof.LibAndReduceOnes
import proofs.«158048_j47837345743217_1_alg».proof.Proof.LibLeadBroadcast

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The wrapped id of token `(b, s)`. -/
theorem wrapped_apply (x : IVec S4x4096 32) (b : Fin 4) (s : Fin 4096) :
    wrapped x (ix2 b s) = Cert.TokenRow.wrap (x (ix2 b s)) := rfl

/-- The start index of token `(b, s)` is its wrapped id. -/
theorem starts_apply (x : IVec S4x4096 32) (b : Fin 4) (s : Fin 4096) (z : Fin 1) :
    starts x (ix3 b s z) = Cert.TokenRow.wrap (x (ix2 b s)) :=
  (Cert.LibLeadBroadcast.bcast_lead2 bcast_S4x4096_S4x4096x1_0_1 (wrapped x) b s z).trans (wrapped_apply x b s)

/-- Where every id passes the range test, the reduced test is `1` at every token. -/
theorem valid_one (x : IVec S4x4096 32) (hok : ∀ i, Cert.TokenRow.inRange (x i) = 1#1) (j : S4x4096.Idx) :
    valid x j = 1#1 := by
  unfold valid
  refine Cert.LibAndReduceOnes.reduce_andi_ones _ _ _ _ (fun i => ?_) rfl j
  obtain ⟨b, s, z, rfl⟩ : ∃ (b : Fin 4) (s : Fin 4096) (z : Fin 1), i = ix3 b s z := ⟨i 0, i 1, i 2, eq_ix3 i⟩
  show IntOp.andi (IntOp.cmpi .sge (starts x (ix3 b s z)) 0#32) (IntOp.cmpi .sle (starts x (ix3 b s z)) 127999#32) = 1#1
  rw [starts_apply]
  exact hok (ix2 b s)

/-- ENTRY `(b, s, h)` OF THE REFERENCE'S RESULT, where every id passes the range test. -/
theorem result_apply (x : IVec S4x4096 32) (ev : FVec Ideal S128000x128 .f32) (eh : FVec Ideal S128x1024 .f32)
    (hok : ∀ i, Cert.TokenRow.inRange (x i) = 1#1) (b : Fin 4) (s : Fin 4096) (h : Fin 1024) :
    result x ev eh (ix3 b s h) = Cert.TokenRow.outAt x ev eh b s h := by
  unfold result
  rw [select_apply, Cert.LibLeadBroadcast.bcast_lead2 bcast_S4x4096_S4x4096x1024_0_1 (valid x) b s h, valid_one x hok,
    select_one]
  rw [Cert.LibGatherRows3.gatherRows3_apply (by decide) _ rfl rfl rfl rfl rfl, starts_apply]
  exact Cert.LibPlainDotSum.hostDot_apply _ rfl rfl rfl rfl rfl rfl none ev eh _ h

end Cert.ReferenceIdeal.RefValue

end
-- ==== Proof.KernelHost.lean ====
/-
  What the kernel's region finds in its two input arrays.

  Before the region the program flattens the token ids to one axis of 16384, reads one 128-wide row of `embed_vocab`
  per token (the outlined indexed read: wrap negative ids, test the range, gather the clamped rows, fill where the test
  fails), and converts the gathered rows and `embed_hidden` to the narrower float format, which on the extended reals
  is the identity. So where every id passes the range test the region's first array holds, at `(n, k)`,
  `embed_vocab[row x[n], k]` with `x[n]` the `n`-th id in row-major order, and its second array holds `embed_hidden`.
-/
import proofs.«158048_j47837345743217_1_alg».proof.Proof.Gen.KernelIdeal.Frame
import Idealize.ShloMosaic.Lib.StableHlo.Run
import Idealize.ShloMosaic.Lib.Pipeline.Value
import proofs.«158048_j47837345743217_1_alg».proof.Proof.TokenRow
import proofs.«158048_j47837345743217_1_alg».proof.Proof.LibGatherRows
import proofs.«158048_j47837345743217_1_alg».proof.Proof.LibAndReduceOnes
import proofs.«158048_j47837345743217_1_alg».proof.Proof.LibLeadBroadcast

noncomputable section

namespace Cert.KernelIdeal.Prefix

open Cert.KernelIdeal Cert.KernelIdeal.Gen Idealize.ShloMosaic Idealize.ShloMosaic.TcCoe Idealize.SL.Sem
open Idealize.ShloMosaic.ValueIdx

variable {F : FTy → Type} [FloatOps F]

/-! ## The host operations before the region, as pure terms -/

/-- The ids on one axis, in row-major order. -/
def flat (x : IVec S4x4096 32) : IVec S16384 32 := shapeCast S16384 x shapeCasts_S4x4096_S16384

/-- The wrapped ids: `x + 128000` where `x < 0`, else `x`. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 128000#32))) x

/-- The wrapped ids as a column of start indices. -/
def starts (x : IVec S16384 32) : IVec S16384x1 32 :=
  broadcastInDim S16384x1 ![0] bcast_S16384_S16384x1_0 (wrapped x)

/-- The range test of every start index, reduced over the index vector's one component. -/
def valid (x : IVec S16384 32) : IVec S16384 1 :=
  Host.reduce IntOp.andi
    (andi (cmpi .sge (starts x) (broadcastInDim S16384x1 ![] bcast_S_S16384x1 (constantI S_ 32 0#32)))
      (cmpi .sle (starts x) (broadcastInDim S16384x1 ![0, 1] bcast_S1x1_S16384x1_0_1
        (broadcastInDim S1x1 ![1] bcast_S1_S1x1_1 (constantI S1 32 127999#32)))))
    (constantI S_ 1 1#1) reducesTo_S16384x1_S16384_d1 h_S_

/-- The rows read: `embed_vocab`'s rows where the range test passes, the fill word elsewhere. -/
def rows (x : IVec S16384 32) (ev : FVec F S128000x128 .f32) : FVec F S16384x128 .f32 :=
  select (broadcastInDim S16384x128 ![0] bcast_S16384_S16384x128_0 (valid x))
    (Host.gather gather_S128000x128_S16384x1_S16384x128_1_0_n_n_0_1_1128 ev (starts x))
    (broadcastInDim S16384x128 ![] bcast_S_S16384x128 (constant S_ .f32 0x7FC00000#32))

/-! The operations come in three stretches: the flattening (1), the indexed read (23), the two conversions (2).
Each stretch's fold is read at the buffers the next one needs, over an arbitrary valuation. -/

/-- After the flattening, its result buffer holds the ids on one axis. -/
theorem flat_v0 (W : Valuation τ sig (Elt F)) :
    StableHlo.after hostOps0 W (main_v0 : DevRef τ sig) = flat (W (main_arg0 : DevRef τ sig)) := by
  simp only [StableHlo.after_cons, StableHlo.after_nil]
  rfl

/-- The flattening leaves `embed_vocab` as it was. -/
theorem flat_arg1 (W : Valuation τ sig (Elt F)) :
    StableHlo.after hostOps0 W (main_arg1 : DevRef τ sig) = W (main_arg1 : DevRef τ sig) := by
  simp only [StableHlo.after_cons, StableHlo.after_nil]
  rfl

/-- The flattening leaves `embed_hidden` as it was. -/
theorem flat_arg2 (W : Valuation τ sig (Elt F)) :
    StableHlo.after hostOps0 W (main_arg2 : DevRef τ sig) = W (main_arg2 : DevRef τ sig) := by
  simp only [StableHlo.after_cons, StableHlo.after_nil]
  rfl

attribute [local irreducible] Host.reduce Host.gather in
set_option maxRecDepth 8192 in
set_option maxHeartbeats 800000 in
/-- After the indexed read, its result buffer holds the rows read. -/
theorem take_v1 (W : Valuation τ sig (Elt F)) :
    StableHlo.after hostOps0_1 W (main_v1 : DevRef τ sig)
      = rows (W (main_v0 : DevRef τ sig)) (W (main_arg1 : DevRef τ sig)) := by
  simp only [StableHlo.after_cons, StableHlo.after_nil]
  rfl

attribute [local irreducible] Host.reduce Host.gather in
set_option maxRecDepth 8192 in
set_option maxHeartbeats 800000 in
/-- The indexed read leaves `embed_hidden` as it was. -/
theorem take_arg2 (W : Valuation τ sig (Elt F)) :
    StableHlo.after hostOps0_1 W (main_arg2 : DevRef τ sig) = W (main_arg2 : DevRef τ sig) := by
  simp only [StableHlo.after_cons, StableHlo.after_nil]
  rfl

/-- After the conversions, the region's first array holds the rows read, converted. -/
theorem cast_v2 (W : Valuation τ sig (Elt F)) :
    StableHlo.after hostOps0_2 W (main_v2 : DevRef τ sig) = truncf .bf16 (W (main_v1 : DevRef τ sig)) bitsLt_bf16_f32 := by
  simp only [StableHlo.after_cons, StableHlo.after_nil]
  rfl

/-- After the conversions, the region's second array holds `embed_hidden`, converted. -/
theorem cast_v3 (W : Valuation τ sig (Elt F)) :
    StableHlo.after hostOps0_2 W (main_v3 : DevRef τ sig) = truncf .bf16 (W (main_arg2 : DevRef τ sig)) bitsLt_bf16_f32 := by
  simp only [StableHlo.after_cons, StableHlo.after_nil]
  rfl

/-- The fold of the 26 operations before the region, at the region's first array: the rows read, converted. -/
theorem pre_v2 (W : Valuation τ sig (Elt F)) :
    StableHlo.after (List.flatten [hostOps0, hostOps0_1, hostOps0_2]) W (main_v2 : DevRef τ sig)
      = truncf .bf16 (rows (flat (W (main_arg0 : DevRef τ sig))) (W (main_arg1 : DevRef τ sig))) bitsLt_bf16_f32 := by
  rw [List.flatten_cons, List.flatten_cons, List.flatten_cons, List.flatten_nil, List.append_nil,
    StableHlo.after_append, StableHlo.after_append, cast_v2, take_v1, flat_v0, flat_arg1]

/-- The same fold at the region's second array: `embed_hidden`, converted. -/
theorem pre_v3 (W : Valuation τ sig (Elt F)) :
    StableHlo.after (List.flatten [hostOps0, hostOps0_1, hostOps0_2]) W (main_v3 : DevRef τ sig)
      = truncf .bf16 (W (main_arg2 : DevRef τ sig)) bitsLt_bf16_f32 := by
  rw [List.flatten_cons, List.flatten_cons, List.flatten_cons, List.flatten_nil, List.append_nil,
    StableHlo.after_append, StableHlo.after_append, cast_v3, take_arg2, flat_arg2]

variable (m : (ℓ : Loc nD τ sig) → Buf (Elt F) ℓ)

/-- The region's first array, of the launch contents. -/
theorem V_main_v2 (c : Dev nD) :
    V m c main_v2 = truncf .bf16 (rows (flat (m ((c : Thread nD τ).loc main_arg0))) (m ((c : Thread nD τ).loc main_arg1)))
      bitsLt_bf16_f32 :=
  pre_v2 (fun b => m (c, b))

/-- The region's second array, of the launch contents. -/
theorem V_main_v3 (c : Dev nD) :
    V m c main_v3 = truncf .bf16 (m ((c : Thread nD τ).loc main_arg2)) bitsLt_bf16_f32 :=
  pre_v3 (fun b => m (c, b))

/-! ## The rows read, at an index -/

/-- The flattened id at position `b · 4096 + s` is the id of token `(b, s)`. -/
theorem flat_apply (x : IVec S4x4096 32) (b : Fin 4) (s : Fin 4096) (n : Fin 16384) (hn : n.val = b.val * 4096 + s.val) :
    flat x (ix1 n) = x (ix2 b s) := by
  unfold flat
  refine shapeCast_apply x _ (ix1 n) (ix2 b s) ?_
  rw [Shape.rowMajor_val_two, Shape.rowMajor_val_one]
  show b.val * 4096 + s.val = n.val
  omega

/-- The wrapped id at position `n`. -/
theorem wrapped_apply (x : IVec S16384 32) (n : Fin 16384) : wrapped x (ix1 n) = Cert.TokenRow.wrap (x (ix1 n)) := rfl

/-- The start index at position `n` is its wrapped id. -/
theorem starts_apply (x : IVec S16384 32) (n : Fin 16384) (z : Fin 1) :
    starts x (ix2 n z) = Cert.TokenRow.wrap (x (ix1 n)) :=
  (Cert.LibLeadBroadcast.bcast_lead1 bcast_S16384_S16384x1_0 (wrapped x) n z).trans (wrapped_apply x n)

/-- Where every id passes the range test, the reduced test is `1` at every position. -/
theorem valid_one (x : IVec S16384 32) (hok : ∀ i, Cert.TokenRow.inRange (x i) = 1#1) (j : S16384.Idx) :
    valid x j = 1#1 := by
  unfold valid
  refine Cert.LibAndReduceOnes.reduce_andi_ones _ _ _ _ (fun i => ?_) rfl j
  obtain ⟨n, z, rfl⟩ : ∃ (n : Fin 16384) (z : Fin 1), i = ix2 n z := ⟨i 0, i 1, eq_ix2 i⟩
  show IntOp.andi (IntOp.cmpi .sge (starts x (ix2 n z)) 0#32) (IntOp.cmpi .sle (starts x (ix2 n z)) 127999#32) = 1#1
  rw [starts_apply]
  exact hok (ix1 n)

/-- ENTRY `(n, k)` OF THE ROWS READ, where every id passes the range test: `embed_vocab` at the row id `n` names. -/
theorem rows_apply (x : IVec S16384 32) (ev : FVec Ideal S128000x128 .f32)
    (hok : ∀ i, Cert.TokenRow.inRange (x i) = 1#1) (n : Fin 16384) (k : Fin 128) :
    rows x ev (ix2 n k) = ev (ix2 (Cert.TokenRow.row (x (ix1 n))) k) := by
  unfold rows
  rw [select_apply, Cert.LibLeadBroadcast.bcast_lead1 bcast_S16384_S16384x128_0 (valid x) n k, valid_one x hok,
    select_one]
  rw [Cert.LibGatherRows.gatherRows_apply (by decide) _ rfl rfl rfl rfl rfl, starts_apply]
  rfl

end Cert.KernelIdeal.Prefix

end
-- ==== Proof.KernelBlocks.lean ====
/-
  From the region's blocks to the kernel's result.

  The region walks 8 grid points. At point `t` it stages rows `[2048·t, 2048·t + 2048)` of its first array `A`
  (16384 × 128) and the whole of its second array `W` (128 × 1024), multiplies them into a zero accumulator, and writes
  the 2048 × 1024 product back as rows `[2048·t, 2048·t + 2048)` of its output. Entry `(p, q)` of a block product is
  `∑ k < 128, A[2048·t + p, k] · W[k, q]`, which is entry `(2048·t + p, q)` of the whole product `A · W`; the 8 row
  blocks tile the output, so after the run the output array is `A · W`. The one host operation after the region
  re-lays the 16384 rows as 4 × 4096.
-/
import proofs.«158048_j47837345743217_1_alg».proof.Proof.Gen.KernelIdeal.Frame
import Idealize.ShloMosaic.Lib.StableHlo.Run
import Idealize.ShloMosaic.Lib.Pipeline.Value
import Idealize.ShloMosaic.Lib.ValueIdx
import proofs.«158048_j47837345743217_1_alg».proof.Proof.LibPlainDotSum

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The whole product `A · W`, entry by entry. -/
def prod (a : FVec Ideal S16384x128 .bf16) (w : FVec Ideal S128x1024 .bf16) : FVec Ideal S16384x1024 .f32 :=
  fun i => ∑ k : Fin 128, a (ix2 (i 0) k) * w (ix2 k (i 1))

theorem prod_apply (a : FVec Ideal S16384x128 .bf16) (w : FVec Ideal S128x1024 .bf16) (n : Fin 16384) (h : Fin 1024) :
    prod a w (ix2 n h) = ∑ k : Fin 128, a (ix2 n k) * w (ix2 k h) := rfl

theorem hz : (![0, 0] : Fin 2 → Nat) = fun _ => 0 := funext fun a => by fin_cases a <;> rfl

/-- Entry `(p, q)` of one block product: the block of `A` against `W`, summed over the 128 shared columns. -/
theorem pay_apply (x0 : Vec Ideal S2048x128 .bf16) (x1 : Vec Ideal S128x1024 .bf16) (p : Fin 2048) (q : Fin 1024) :
    k0_pay1 x0 x1 (ix2 p q) = ∑ k : Fin 128, x0 (ix2 p k) * x1 (ix2 k q) := by
  unfold k0_pay1
  rw [shapeCast_self, shapeCast_self]
  exact Cert.LibPlainDotSum.matmul_zero_apply _ rfl rfl rfl rfl rfl rfl none x0 x1 p q

/-- The printed index maps over the grid: the first input's row block moves with the output's, every other block
    index is `0`. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every one of the 8 row blocks of the output is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

variable (m : (ℓ : Loc nD τ sig) → Buf (Elt Ideal) ℓ) (ρ : Dev nD → PrngReg)

/-- The region's two input arrays, under their literal types. -/
abbrev arrA (c : Dev nD) : FVec Ideal S16384x128 .bf16 := V m c main_v2
abbrev arrW (c : Dev nD) : FVec Ideal S128x1024 .bf16 := V m c main_v3
/-- Point `t`'s input blocks, under their literal types. -/
abbrev blkA (c : Dev nD) (t : Fin cfg0.N) : Vec Ideal S2048x128 .bf16 := iblk m c 0 t
abbrev blkW (c : Dev nD) (t : Fin cfg0.N) : Vec Ideal S128x1024 .bf16 := iblk m c 1 t

/-- Point `t`'s block of `A` at `(p, k)` is `A` at the row the output's block puts `p` on. -/
theorem blkA_read (c : Dev nD) (t : Fin cfg0.N) (p : Fin 2048) (k : Fin 128) (q : Fin 1024) :
    blkA m c t (ix2 p k) = arrA m c (ix2 ((((cfg0.win 2).blk t).view.emb (ix2 p q)) 0) k) := by
  obtain ⟨e0, e1, e2, e3, e4, e5⟩ := idx_facts t
  show V m c main_v2 (((cfg0.win 0).blk t).view.emb (ix2 p k)) = V m c main_v2 _
  refine congrArg (V m c main_v2) ?_
  funext a; apply Fin.ext
  match a with
  | ⟨0, _⟩ =>
    show win0_0.index t (0 : Fin 2) * 2048 + 1 * p.val = win0_2.index t (0 : Fin 2) * 2048 + 1 * p.val
    omega
  | ⟨1, _⟩ =>
    show win0_0.index t (1 : Fin 2) * 128 + 1 * k.val = k.val
    omega

/-- Point `t`'s block of `W` is all of `W`. -/
theorem blkW_read (c : Dev nD) (t : Fin cfg0.N) (p : Fin 2048) (k : Fin 128) (q : Fin 1024) :
    blkW m c t (ix2 k q) = arrW m c (ix2 k ((((cfg0.win 2).blk t).view.emb (ix2 p q)) 1)) := by
  obtain ⟨e0, e1, e2, e3, e4, e5⟩ := idx_facts t
  show V m c main_v3 (((cfg0.win 1).blk t).view.emb (ix2 k q)) = V m c main_v3 _
  refine congrArg (V m c main_v3) ?_
  funext a; apply Fin.ext
  match a with
  | ⟨0, _⟩ =>
    show win0_1.index t (0 : Fin 2) * 128 + 1 * k.val = k.val
    omega
  | ⟨1, _⟩ =>
    show win0_1.index t (1 : Fin 2) * 1024 + 1 * q.val = win0_2.index t (1 : Fin 2) * 1024 + 1 * q.val
    omega

/-- WHAT POINT `t` WRITES BACK is block `t` of the whole product of the region's input arrays. -/
theorem flushed_eq (c : Dev nD) (t : Fin cfg0.N) :
    (dats m 0 c).flushed 2 t = ((cfg0.win 2).blk t).view.read (Elt Ideal) (prod (arrA m c) (arrW m c)) := by
  show (cfg0.win 2).cut (grid0.coords t) ((dats m 0 c).after 2 t) = _
  rw [after0_2]
  unfold out0_2
  rw [View.canon_unit_zero hz]
  simp only [View.ld_unit_zero (S := S2048x128) hz, View.ld_unit_zero (S := S128x1024) hz]
  funext j
  obtain ⟨p, q, rfl⟩ : ∃ (p : Fin 2048) (q : Fin 1024), j = ix2 p q := ⟨j 0, j 1, eq_ix2 j⟩
  show k0_pay1 (blkA m c t) (blkW m c t) (ix2 p q)
    = prod (arrA m c) (arrW m c) (((cfg0.win 2).blk t).view.emb (ix2 p q))
  refine (pay_apply (blkA m c t) (blkW m c t) p q).trans ?_
  refine Finset.sum_congr rfl fun k _ => ?_
  rw [blkA_read m c t p k q, blkW_read m c t p k q]

/-- An index of the output array is in point `t`'s block iff each coordinate is in the block's range on its axis. -/
theorem mem_blk (t : Fin cfg0.N) (i : S16384x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v4).slice (win0_2.rect t)).set ↔ _
  rw [View.set_slice_whole, Rect.mem_set_unit]
  exact Iff.rfl

/-- The 8 row blocks tile the output: row `r` is in the block of the point whose block index is `r / 2048`. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- THE OUTPUT ARRAY after the run is the whole product of the region's input arrays. -/
theorem final (c : Dev nD) : (dats m 0 c).arrAt 2 cfg0.N = prod (arrA m c) (arrW m c) :=
  (dats m 0 c).arrAt_eq_of_cover 2 (prod (arrA m c) (arrW m c)) (fun t _ => flushed_eq m c t) cover

/-- The result buffer after the host operation that follows the region: the product, its 16384 rows re-laid as
    4 × 4096. -/
theorem tail_v5 (c : Dev nD) :
    Pipeline.afterTail₀ cfgs (dats m) 0 (V0 m) [hostOps1] c main_v5
      = shapeCast S4x4096x1024 (prod (arrA m c) (arrW m c)) shapeCasts_S16384x1024_S4x4096x1024 := by
  unfold Pipeline.afterTail₀
  show StableHlo.after hostOps1 _ (Proc.devRef .tc main_v5) = _
  after_results
  funext i
  have e : Pipeline.withArrays (cfgs 0).spec c (V0 m c) (fun w => (dats m 0 c).arrAt w (cfgs 0).N)
      (Proc.devRef .tc main_v4) = prod (arrA m c) (arrW m c) :=
    (Pipeline.withArrays_arr spec0 launch0.win.arr_inj c _ _ 2).trans (final m c)
  show shapeCast S4x4096x1024 (Pipeline.withArrays (cfgs 0).spec c (V0 m c) (fun w => (dats m 0 c).arrAt w (cfgs 0).N)
      (Proc.devRef .tc main_v4)) shapeCasts_S16384x1024_S4x4096x1024 i = _
  rw [e]

/-- THE KERNEL'S RUN, READ: every weakly fair execution terminates with the result buffer at the product of the region's
    input arrays, re-laid, and the three arguments unchanged. -/
theorem run : θ_run defs (onTc (τ := τ) (main (F := Ideal))) ⟨m, fun _ => 0, ρ⟩ (fun r => ∀ c : Dev nD,
      r.2.mem ((c.tc : Thread nD τ).loc main_v5)
          = shapeCast S4x4096x1024 (prod (arrA m c) (arrW m c)) shapeCasts_S16384x1024_S4x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Blocks

end
-- ==== Proof.KernelValue.lean ====
/-
  The kernel's result, entry by entry.

  The kernel's result is the product of the rows read with `embed_hidden`, its 16384 rows re-laid as 4 × 4096. Token
  `(b, s)` sits at row `n = b · 4096 + s`; where every id passes the range test that row of the first factor is row
  `row x[b, s]` of `embed_vocab`. So entry `(b, s, h)` is `∑ k < 128, embed_vocab[row x[b, s], k] · embed_hidden[k, h]`:
  the factorized embedding, with the row read before the product instead of after it.
-/
import proofs.«158048_j47837345743217_1_alg».proof.Proof.KernelHost
import proofs.«158048_j47837345743217_1_alg».proof.Proof.KernelBlocks

noncomputable section

open scoped BigOperators

namespace Cert.KernelIdeal.KValue

open Cert.KernelIdeal Cert.KernelIdeal.Gen Cert.KernelIdeal.Blocks Cert.KernelIdeal.Prefix
open Idealize.ShloMosaic Idealize.ShloMosaic.TcCoe Idealize.SL.Sem Idealize.ShloMosaic.ValueIdx

variable (m : (ℓ : Loc nD τ sig) → Buf (Elt Ideal) ℓ)

/-- Entry `(n, k)` of the region's first array, where every id passes the range test. -/
theorem arrA_apply (c : Dev nD) (hok : ∀ i, Cert.TokenRow.inRange (m ((c : Thread nD τ).loc main_arg0) i) = 1#1)
    (b : Fin 4) (s : Fin 4096) (n : Fin 16384) (hn : n.val = b.val * 4096 + s.val) (k : Fin 128) :
    arrA m c (ix2 n k)
      = (m ((c : Thread nD τ).loc main_arg1) : FVec Ideal S128000x128 .f32)
          (ix2 (Cert.TokenRow.row (m ((c : Thread nD τ).loc main_arg0) (ix2 b s))) k) := by
  show V m c main_v2 (ix2 n k) = _
  rw [V_main_v2, truncf_apply,
    rows_apply (flat (m ((c : Thread nD τ).loc main_arg0))) (m ((c : Thread nD τ).loc main_arg1)) (fun i => hok _) n k,
    flat_apply (m ((c : Thread nD τ).loc main_arg0)) b s n hn]

/-- Entry `(k, h)` of the region's second array. -/
theorem arrW_apply (c : Dev nD) (k : Fin 128) (h : Fin 1024) :
    arrW m c (ix2 k h) = (m ((c : Thread nD τ).loc main_arg2) : FVec Ideal S128x1024 .f32) (ix2 k h) := by
  show V m c main_v3 (ix2 k h) = _
  rw [V_main_v3, truncf_apply]

/-- THE KERNEL'S RESULT IS THE FACTORIZED EMBEDDING, where every id passes the range test. -/
theorem result_eq (c : Dev nD) (hok : ∀ i, Cert.TokenRow.inRange (m ((c : Thread nD τ).loc main_arg0) i) = 1#1) :
    shapeCast S4x4096x1024 (prod (arrA m c) (arrW m c)) shapeCasts_S16384x1024_S4x4096x1024
      = Cert.TokenRow.out (m ((c : Thread nD τ).loc main_arg0)) (m ((c : Thread nD τ).loc main_arg1))
          (m ((c : Thread nD τ).loc main_arg2)) := by
  funext i
  obtain ⟨b, s, h, rfl⟩ : ∃ (b : Fin 4) (s : Fin 4096) (h : Fin 1024), i = ix3 b s h := ⟨i 0, i 1, i 2, eq_ix3 i⟩
  have hb := b.isLt
  have hs := s.isLt
  have hn : b.val * 4096 + s.val < 16384 := by omega
  rw [shapeCast_apply (prod (arrA m c) (arrW m c)) _ (ix3 b s h) (ix2 ⟨b.val * 4096 + s.val, hn⟩ h) (by
    rw [Shape.rowMajor_val_two, Shape.rowMajor_val_three]; rfl)]
  rw [prod_apply, Cert.TokenRow.out_ix3]
  unfold Cert.TokenRow.outAt
  refine Finset.sum_congr rfl fun k _ => ?_
  rw [arrA_apply m c hok b s ⟨b.val * 4096 + s.val, hn⟩ rfl k, arrW_apply m c k h]

end Cert.KernelIdeal.KValue

end
-- ==== Proof.PreRange.lean ====
/-
  What the precondition says of the token ids.

  The precondition is the conjunction of three `jnp.all`s: both float inputs finite, and every token id in
  `[-128000, 128000)`, the ids that name a row of the table, from the front or from the end. Only the last is used here:
  where the precondition is `1`, every id passes the indexed read's range test.
-/
import proofs.«158048_j47837345743217_1_alg».proof.Pre_finite_inputs
import proofs.«158048_j47837345743217_1_alg».proof.Proof.Gen.Pre_finite_inputs
import Idealize.ShloMosaic.Lib.ReduceAll
import Idealize.ShloMosaic.Lib.ValueIdx
import proofs.«158048_j47837345743217_1_alg».proof.Proof.TokenRow

noncomputable section

namespace Cert.PreRange

open Idealize.ShloMosaic Idealize.ShloMosaic.ValueIdx Cert.Pre_finite_inputs Cert.Pre_finite_inputs.Gen

instance : Subsingleton S_.Idx := ⟨fun a b => funext fun d => d.elim0⟩

/-- Under the precondition every token id passes the range test. -/
theorem inRange_of_pre {F : FTy → Type} [FloatOps F] (x : IVec S4x4096 32) (ev : FVec F S128000x128 .f32)
    (eh : FVec F S128x1024 .f32) (h : Cert.Pre_finite_inputs.fn (F := F) x ev eh = fun _ => 1#1) (i : S4x4096.Idx) :
    Cert.TokenRow.inRange (x i) = 1#1 := by
  have h0 := congrFun h ix0
  dsimp only [Cert.Pre_finite_inputs.fn] at h0
  obtain ⟨-, h14⟩ := IntOp.andi_eq_one.mp h0
  have h13 := Host.reduce_andi_all _ _ _ _ _ h14 i
  obtain ⟨ha, hb⟩ := IntOp.andi_eq_one.mp h13
  exact Cert.TokenRow.inRange_of_bounds (show (4294839296#32 : BitVec 32).toInt = -128000 by decide) ha hb

end Cert.PreRange

end
-- ==== Proof.lean ====
/-
  A factorized embedding: gather-then-project against project-then-gather.

  The reference forms the full table `embed_vocab · embed_hidden` (128000 × 1024) and reads one row of it per token id.
  The kernel reads one 128-wide row of `embed_vocab` per token first, and multiplies the 16384 gathered rows by
  `embed_hidden` in 8 row blocks of 2048 (inputs converted to a narrower float format, which on the extended reals is
  the identity). Reading a row is linear in the table, so both compute, at token `(b, s)` and column `h`,

      ∑ k < 128, embed_vocab[x[b, s], k] · embed_hidden[k, h]

  — the same sum, term by term, so no law of the extended reals beyond the definition of the two products is needed
  and the finiteness of the float inputs is never used. What IS used is that every id names a row: an indexed read
  replaces a row whose id is out of range by a fill word, and the kernel then multiplies the fill by `embed_hidden`
  where the reference keeps the fill itself, so outside `-128000 ≤ x < 128000` (the ids that name a row, from the front
  or, negative, from the end) the two differ; the precondition carries that range.

  The kernel's side: the host operations before the region as pure terms (KernelHost), the region's 8 blocks joined
  into the whole product and the re-laying after it (KernelBlocks), the result entry by entry (KernelValue). The
  reference's side: its 24 host operations run and composed (RefRun), the result entry by entry (RefValue). Both are
  the one array `TokenRow.out` of the arguments; the precondition's range conjunct is decoded in PreRange.
-/
import proofs.«158048_j47837345743217_1_alg».proof.Defs
import proofs.«158048_j47837345743217_1_alg».proof.Proof.Gen.Kernel
import proofs.«158048_j47837345743217_1_alg».proof.Proof.Gen.Kernel.Skeleton
import proofs.«158048_j47837345743217_1_alg».proof.Proof.Gen.Kernel.Launch
import proofs.«158048_j47837345743217_1_alg».proof.Proof.Gen.Kernel.Points
import proofs.«158048_j47837345743217_1_alg».proof.Proof.Gen.Kernel.Frame
import proofs.«158048_j47837345743217_1_alg».proof.Proof.Gen.KernelIdeal
import proofs.«158048_j47837345743217_1_alg».proof.Proof.Gen.KernelIdeal.Skeleton
import proofs.«158048_j47837345743217_1_alg».proof.Proof.Gen.KernelIdeal.Launch
import proofs.«158048_j47837345743217_1_alg».proof.Proof.Gen.KernelIdeal.Points
import proofs.«158048_j47837345743217_1_alg».proof.Proof.Gen.KernelIdeal.Frame
import proofs.«158048_j47837345743217_1_alg».proof.Proof.Gen.ReferenceIdeal
import proofs.«158048_j47837345743217_1_alg».proof.Proof.Gen.Pre_finite_inputs
import proofs.«158048_j47837345743217_1_alg».proof.Proof.RefRun
import proofs.«158048_j47837345743217_1_alg».proof.Proof.RefValue
import proofs.«158048_j47837345743217_1_alg».proof.Proof.KernelValue
import proofs.«158048_j47837345743217_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the factorized embedding `TokenRow.out` of the (agreeing) arguments: the kernel's run
    posts the re-laid block product, which is that array entry by entry; the reference's run posts the gathered
    rows of the product table, which is that array entry by entry; in both the precondition's range conjunct makes the
    indexed read keep every row. -/
theorem algebraic : Cert.algebraic_KernelIdeal_ReferenceIdeal := by
  intro m ρ m' ρ' hpre hagree
  have hok : ∀ (c : Dev Cert.KernelIdeal.nD) i,
      Cert.TokenRow.inRange (m ((c : Thread Cert.KernelIdeal.nD Cert.KernelIdeal.τ).loc Cert.KernelIdeal.main_arg0) i) = 1#1 :=
    fun c i => Cert.PreRange.inRange_of_pre _ _ _ (hpre c) i
  refine ⟨fun c => Cert.TokenRow.out
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KValue.result_eq m c (hok c)), (h c).2⟩)
      (Cert.KernelIdeal.Blocks.run m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    funext i
    obtain ⟨b, s, h, rfl⟩ : ∃ (b : Fin 4) (s : Fin 4096) (h : Fin 1024), i = ix3 b s h := ⟨i 0, i 1, i 2, eq_ix3 i⟩
    exact Cert.ReferenceIdeal.RefValue.result_apply _ _ _ (hok c) b s h

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
